-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : IVec S4096x8192 32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S1x1 : Shape := ⟨2, ![1, 1]⟩
abbrev S128x8192 : Shape := ⟨2, ![128, 8192]⟩
abbrev S1x128x8192 : Shape := ⟨3, ![1, 128, 8192]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i32⟩
  | .hbm, ⟨2, _⟩ => ⟨S1x1, .f32⟩
  | .hbm, ⟨3, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .i32⟩
  | .local _ .vmem, ⟨3, _⟩ => ⟨S128x8192, .i32⟩
  | .local _ .vmem, ⟨4, _⟩ => ⟨S1x1, .f32⟩
  | .local _ .vmem, ⟨5, _⟩ => ⟨S1x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v29 : BitVec 1 := Scalar.cmpi .eq arg0 c31_i32
  let v30 : BitVec 32 := Scalar.extui v29
  let c0_i32_11 : BitVec 32 := 0#32
  let v31 : BitVec 1 := Scalar.cmpi .ne v30 c0_i32_11
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x8192_S128x8192_0_0 : ∀ a, (![0, 0] : Fin 2 → Nat) a + S128x8192.size a ≤ S128x8192.size a
  h_S128x8192 : 0 < S128x8192.numel
  shapeCasts_S128x8192_S1x128x8192 : S128x8192.ShapeCasts S1x128x8192
  reduces_S1x128x8192_S1 : S1x128x8192.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .i32 = 32 ∨ (Rect.block (s := S4096x8192) S128x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x8192 : Shape := ⟨2, ![4096, 8192]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i32⟩
  | .hbm, ⟨2, _⟩ => ⟨S4096x8192, .f32⟩
  | .hbm, ⟨3, _⟩ => ⟨S_, .i32⟩
  | .hbm, ⟨4, _⟩ => ⟨S4096x8192, .i32⟩
  | .hbm, ⟨5, _⟩ => ⟨S4096x8192, .i1⟩
  | .hbm, ⟨6, _⟩ => ⟨S_, .i32⟩
  | .hbm, ⟨7, _⟩ => ⟨S4096x8192, .i32⟩
  | .hbm, ⟨8, _⟩ => ⟨S4096x8192, .i1⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_2 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts₀]

class Facts : Prop extends Facts₀ where

variable [Facts]
-- ==== Proof.LossSpec.lean ====
/-
  The mathematics both programs share: one element's contribution to the loss, and the fact that a sum over
  the whole [4096, 8192] array is the sum, over the 32 row blocks of 128 rows, of each block's sum.

  For a norm `x` and a label `l` the contribution is `(s·x − s·l)²` with `s = 5` when `l = 1`, `3` when `l = 2`
  and `1` otherwise (the label converted to a float before the product). Both programs compute exactly this
  term, from the same float words, so it is never opened: only sums of it are re-arranged, and on the extended
  reals addition is commutative and associative, which is all a re-arrangement needs.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.LossSpec

open Idealize.ShloMosaic Idealize.ShloMosaic.ValueIdx

/-- A row block: 128 rows of 8192 columns. -/
abbrev SBlk : Shape := ⟨2, ![128, 8192]⟩
/-- The whole array: 4096 rows of 8192 columns. -/
abbrev SArr : Shape := ⟨2, ![4096, 8192]⟩

section Term
variable {F : FTy → Type} [FloatOps F]

/-- The label's scale: 5 for label 1, 3 for label 2, 1 for any other label. -/
def scaleOf (l : BitVec 32) : F .f32 :=
  Scalar.select (IntOp.cmpi .eq l 1#32) (FloatOps.ofBits .f32 0x40A00000#32)
    (Scalar.select (IntOp.cmpi .eq l 2#32) (FloatOps.ofBits .f32 0x40400000#32) (FloatOps.ofBits .f32 0x3F800000#32))

/-- One element's contribution: the square of `s·x − s·l`. -/
def term (x : F .f32) (l : BitVec 32) : F .f32 :=
  FloatOps.mulf
    (FloatOps.subf (FloatOps.mulf (scaleOf l) x) (FloatOps.mulf (scaleOf l) (FloatOps.sitofp .f32 l)))
    (FloatOps.subf (FloatOps.mulf (scaleOf l) x) (FloatOps.mulf (scaleOf l) (FloatOps.sitofp .f32 l)))

/-- The scales of a whole vector of labels, by the vector operations both programs use. -/
def scaleVec {s : Shape} (l : IVec s 32) : FVec F s .f32 :=
  select (cmpi .eq l (broadcast s 1#32)) (broadcast s (FloatOps.ofBits .f32 0x40A00000#32))
    (select (cmpi .eq l (broadcast s 2#32)) (broadcast s (FloatOps.ofBits .f32 0x40400000#32))
      (broadcast s (FloatOps.ofBits .f32 0x3F800000#32)))

/-- The contributions of a whole vector of norms and labels, by the vector operations both programs use. -/
def sqVec {s : Shape} (x : FVec F s .f32) (l : IVec s 32) : FVec F s .f32 :=
  mulf (subf (mulf (scaleVec l) x) (mulf (scaleVec l) (sitofp .f32 l)))
    (subf (mulf (scaleVec l) x) (mulf (scaleVec l) (sitofp .f32 l)))

/-- Entry by entry the vector form is the contribution of that entry's norm and label. -/
theorem sqVec_apply {s : Shape} (x : FVec F s .f32) (l : IVec s 32) (i : s.Idx) : sqVec x l i = term (x i) (l i) := rfl

/-- A rank-0 integer constant broadcast to a shape is the splat of its word, -/
theorem bcastI_const {s : Shape} (h : (⟨0, ![]⟩ : Shape).BroadcastsInDim s (![] : Fin 0 → Fin s.rank)) (b : BitVec 32) :
    broadcastInDim s ![] h (constantI ⟨0, ![]⟩ 32 b) = broadcast s b := rfl

/-- and a rank-0 float constant broadcast to a shape the splat of its value. -/
theorem bcastF_const {s : Shape} (h : (⟨0, ![]⟩ : Shape).BroadcastsInDim s (![] : Fin 0 → Fin s.rank)) (b : BitVec 32) :
    broadcastInDim s ![] h (constant (F := F) ⟨0, ![]⟩ .f32 b) = broadcast s (FloatOps.ofBits .f32 b) := rfl

end Term

/-- Re-laying a vector out in another shape does not change the sum of its entries. -/
theorem sum_shapeCast {s t : Shape} {M : Type} [AddCommMonoid M] (h : s.ShapeCasts t) (f : s.Idx → M) :
    ∑ j : t.Idx, shapeCast t f h j = ∑ i : s.Idx, f i := Equiv.sum_comp (Shape.reshapeEquiv h) f

/-- Where entry `j` of row block `t` sits in the whole array: row `j₀ + 128·t`, the same column. -/
abbrev rowAt (t : ℕ) (ht : t < 32) (j : SBlk.Idx) : SArr.Idx :=
  ix2 ⟨(j 0).val + 128 * t, by have := idx2_lt0 j; omega⟩ (j 1)

/-- 4096 rows are 32 runs of 128 consecutive rows. -/
theorem sum_rows_split {M : Type*} [AddCommMonoid M] (g : Fin 4096 → M) :
    ∑ a, g a = ∑ t : Fin 32, ∑ r : Fin 128, g ⟨r.val + 128 * t.val, by have := r.isLt; have := t.isLt; omega⟩ := by
  rw [← Equiv.sum_comp (finProdFinEquiv (m := 32) (n := 128)) g, Fintype.sum_prod_type]
  rfl

/-- A sum over the whole array is the sum over the row blocks of each block's sum. -/
theorem sum_blocks {M : Type*} [AddCommMonoid M] (f : SArr.Idx → M) :
    ∑ I, f I = ∑ t : Fin 32, ∑ j : SBlk.Idx, f (rowAt t.val t.isLt j) := by
  rw [sum_idx2, sum_rows_split]
  refine Finset.sum_congr rfl fun t _ => ?_
  rw [sum_idx2]

/-- A running sum started at `z` and fed one block's sum after another ends at `z` plus the sum of them all. -/
theorem chain_succ {M : Type*} [AddCommMonoid M] (z : M) (S : ℕ → M) (n : ℕ) :
    (z + ∑ k ∈ Finset.range (n + 1), S k) + S (n + 1) = z + ∑ k ∈ Finset.range (n + 2), S k := by
  rw [Finset.sum_range_succ S (n + 1), add_assoc]

end Cert.LossSpec

end
-- ==== Proof.KernelMean.lean ====
/-
  What the idealized kernel leaves in its result, read at the extended reals.

  The grid walks the 32 row blocks of 128 rows. A one-element scratch carries a running sum: the first point resets it
  to zero, every point adds the sum over its block of the elementwise contribution `(s·x − s·l)²`, and the last
  point divides the running sum by the number of elements and stores the quotient into the one-element output block,
  which is written back there and nowhere else. So after point `n` the scratch holds `0 + ∑_{k ≤ n} (block k's sum)`
  (induction on the point), the output array ends at that sum over all 32 blocks divided by 2²⁵, and the host's
  reshape after the region turns the [1, 1] array into the scalar result. A block's entry `(r, b)` at point `t` is the
  array's entry `(r + 128·t, b)`.
-/
import proofs.«146696_j29695403885106_1_alg».proof.Proof.Gen.KernelIdeal.Frame
import proofs.«146696_j29695403885106_1_alg».proof.Proof.LossSpec
import Idealize.ShloMosaic.Lib.Pipeline.Value
import Idealize.ShloMosaic.Lib.StableHlo.Run
import Idealize.ShloMosaic.PureOps.Ideal.Laws
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.LossSpec

/-! ## What each control case leaves, as payloads of what it loaded -/

section Pieces
variable {F : FTy → Type} [FloatOps F]

theorem hz : (![0, 0] : Fin 2 → Nat) = fun _ => 0 := funext fun a => by fin_cases a <;> rfl

/-- A middle point (neither first nor last) leaves in the scratch the update of what it found there. -/
theorem sout_B (c : Dev nD) (i : grid0.Coords) (a1 : Memref sig .tc .vmem S128x8192 .f32) (h1 : a1.IsWhole)
    (a2 : Memref sig .tc .vmem S128x8192 .i32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S128x8192 .f32) (x1 : Vec F S128x8192 .i32) (xs : Vec F S1x1 .f32) :
    sout0_B_0 c i a1 h1 a2 h2 a3 h3 a4 h4 hc0 hc1 x0 x1 xs = k0_pay2 x1 x0 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S128x8192) hz,
    View.ld_unit_zero (S := S1x1) hz]

/-- The last point leaves the same update in the scratch … -/
theorem sout_C (c : Dev nD) (i : grid0.Coords) (a1 : Memref sig .tc .vmem S128x8192 .f32) (h1 : a1.IsWhole)
    (a2 : Memref sig .tc .vmem S128x8192 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S128x8192 .f32) (x1 : Vec F S128x8192 .i32) (xs : Vec F S1x1 .f32) :
    sout0_C_0 c i a1 h1 a2 h2 a3 h3 a4 h4 hc0 hc1 x0 x1 xs = k0_pay2 x1 x0 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S128x8192) hz,
    View.ld_unit_zero (S := S1x1) hz]

/-- … and, in the output block, the quotient of that update (read back from the scratch). -/
theorem out_C (c : Dev nD) (i : grid0.Coords) (a1 : Memref sig .tc .vmem S128x8192 .f32) (h1 : a1.IsWhole)
    (a2 : Memref sig .tc .vmem S128x8192 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S128x8192 .f32) (x1 : Vec F S128x8192 .i32) (xs : Vec F S1x1 .f32) :
    out0_C_2 c i a1 h1 a2 h2 a3 h3 a4 h4 hc0 hc1 x0 x1 xs = k0_pay3 (k0_pay2 x1 x0 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz]
  simp only [View.readCov_unit_zero (S := S1x1) _ hz, View.readAt_eq_ld, h1.read_unread, h2.read_unread, h4.read_unread,
    View.ld_unit_zero (S := S128x8192) hz, View.ld_unit_zero (S := S1x1) hz]

/-- The first point stores the zero, reads it back, and leaves the update of the zero. -/
theorem sout_A (c : Dev nD) (i : grid0.Coords) (a1 : Memref sig .tc .vmem S128x8192 .f32) (h1 : a1.IsWhole)
    (a2 : Memref sig .tc .vmem S128x8192 .i32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S128x8192 .f32) (x1 : Vec F S128x8192 .i32) :
    sout0_A_0 c i a1 h1 a2 h2 a3 h3 a4 h4 hc0 hc1 x0 x1 = k0_pay2 x1 x0 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S128x8192) hz,
    View.ld_unit_zero (S := S1x1) hz]

end Pieces

/-! ## The payloads over the extended reals -/

/-- The float word of zero, as the extended real both programs start their sums from. -/
abbrev zeroE : EReal := Ideal.ofBits .f32 0x00000000#32
/-- The float word of 2²⁵ = 33554432, the number of elements, as an extended real. -/
abbrev countE : EReal := Ideal.ofBits .f32 0x4C000000#32

/-- The reset stores zero. -/
theorem pay1_eq : k0_pay1 (F := Ideal) = fun _ => zeroE := rfl

section Update
variable {F : FTy → Type} [FloatOps F]

/-- The scratch update on an arbitrary block of contributions `v`: the block is summed over both axes by the lane
    reduction (through a [1, 128, 8192] layout into a one-element vector), and the sum is added to the scratch. -/
def upd (v : FVec F S128x8192 .f32) (acc : Vec F S1x1 .f32) : FVec F S1x1 .f32 :=
  shapeCast S1x1
    (addf acc (broadcast S1x1
      (extractAt ![0, 0, 0]
        (shapeCast S1x1x1
          (multiReduction .add [1, 2] S1 (shapeCast S1x128x8192 v shapeCasts_S128x8192_S1x128x8192) 0x00000000#32
            reduces_S1x128x8192_S1 (.inl rfl) rfl)
          shapeCasts_S1_S1x1x1)
        inpos_S1x1x1_p0_0_0)))
    shapeCasts_S1x1_S1x1

/-- The kernel's update is `upd` on the block of contributions of the loaded norms and labels. -/
theorem pay2_upd (x1 : Vec F S128x8192 .i32) (x0 : Vec F S128x8192 .f32) (acc : Vec F S1x1 .f32) :
    k0_pay2 x1 x0 acc = upd (sqVec x0 x1) acc := rfl

end Update

/-- Taking the one entry out of a one-element vector laid out as [1, 1, 1] reads the vector at its one index. -/
theorem extract_one {α : Type} (g : S1.Idx → α) (h3 : S1.ShapeCasts S1x1x1)
    (h4 : ∀ a, (![0, 0, 0] : Fin 3 → Nat) a < S1x1x1.size a) :
    extractAt ![0, 0, 0] (shapeCast S1x1x1 g h3) h4 = g (Shape.reshapeEquiv h3 fun a => ⟨![0, 0, 0] a, h4 a⟩) := rfl

/-- Over the extended reals the update adds the sum of every entry of the block. -/
theorem upd_eq (v : FVec Ideal S128x8192 .f32) (acc : Vec Ideal S1x1 .f32) :
    upd (F := Ideal) v acc = fun i => acc i + ∑ j, v j := by
  funext i
  unfold upd
  rw [shapeCast_self, addf_apply, broadcast_apply, extract_one]
  refine congrArg (acc i + ·) ?_
  refine (Ideal.multiReduction_add_total _ _ _ (fun b => by fin_cases b; rfl) _ _ _).trans ?_
  exact sum_shapeCast _ v

/-- The update adds, to what the scratch held, the sum over the block of every element's contribution. -/
theorem pay2_eq (x1 : Vec Ideal S128x8192 .i32) (x0 : Vec Ideal S128x8192 .f32) (acc : Vec Ideal S1x1 .f32) :
    k0_pay2 (F := Ideal) x1 x0 acc = fun i => acc i + ∑ j, sqVec (F := Ideal) x0 x1 j :=
  (pay2_upd x1 x0 acc).trans (upd_eq _ acc)

/-- The last point's quotient by the element count. -/
theorem pay3_eq (v : Vec Ideal S1x1 .f32) : k0_pay3 (F := Ideal) v = fun i => Ideal.div (v i) countE := rfl

/-! ## The running sum, point by point -/

section Run
variable (m : (ℓ : Loc nD τ sig) → Buf (Elt Ideal) ℓ) (ρ : Dev nD → PrngReg)

/-- The norms' row block at point `t`, at its literal shape. -/
abbrev nblk (c : Dev nD) (t : Fin cfg0.N) : Vec Ideal S128x8192 .f32 := iblk m c 0 t
/-- The labels' row block at point `t`, at its literal shape. -/
abbrev lblk (c : Dev nD) (t : Fin cfg0.N) : Vec Ideal S128x8192 .i32 := iblk m c 1 t

/-- The sum of the contributions of row block `k` (nothing past the grid's end). -/
def blockSum (c : Dev nD) (k : ℕ) : EReal :=
  if h : k < cfg0.N then ∑ j, sqVec (F := Ideal) (nblk m c ⟨k, h⟩) (lblk m c ⟨k, h⟩) j else 0

/-- After point `n` the scratch holds zero plus the sums of blocks `0 … n`. -/
theorem scratch_eq (c : Dev nD) : ∀ (n : ℕ) (h : n < cfg0.N),
    (outsAt0 m c n h).2 = fun _ => zeroE + ∑ k ∈ Finset.range (n + 1), blockSum m c k
  | 0, h => by
    rw [outsAt0_A m c ⟨0, h⟩ rfl (by show ¬(0 % 32 = 31); decide)]
    dsimp only
    rw [sout_A, pay2_eq, pay1_eq]
    funext i
    rw [Finset.sum_range_one, blockSum, dif_pos h]
  | n + 1, h => by
    have hN : cfg0.N = 32 := N_0
    have h0 : ¬(⟨n + 1, h⟩ : Fin cfg0.N).val % 32 = 0 := by dsimp only; omega
    have ih := scratch_eq c n (Nat.lt_of_succ_lt h)
    by_cases h1 : (⟨n + 1, h⟩ : Fin cfg0.N).val % 32 = 31
    · rw [outsAt0_C m c ⟨n + 1, h⟩ h0 h1]
      dsimp only
      rw [sout_C, pay2_eq]
      funext i
      show (outsAt0 m c n _).2 i + _ = _
      rw [ih, ← chain_succ, blockSum, dif_pos h]
    · rw [outsAt0_B m c ⟨n + 1, h⟩ h0 h1]
      dsimp only
      rw [sout_B, pay2_eq]
      funext i
      show (outsAt0 m c n _).2 i + _ = _
      rw [ih, ← chain_succ, blockSum, dif_pos h]

/-- The grid's last point. -/
abbrev tLast : Fin cfg0.N := ⟨31, by rw [show cfg0.N = 32 from N_0]; decide⟩

/-- What the output array ends holding: the sum of all 32 blocks over zero, divided by the element count. -/
abbrev result (c : Dev nD) : Buf (Elt Ideal) ((c : Thread nD τ).loc main_v0) :=
  fun _ => Ideal.div (zeroE + ∑ k ∈ Finset.range 32, blockSum m c k) countE

/-- The last point leaves exactly that in the output block. -/
theorem out_last (c : Dev nD) : (outsAt0 m c tLast.val tLast.isLt).1 = result m c := by
  have hN : cfg0.N = 32 := N_0
  rw [outsAt0_C m c tLast (by decide) (by decide)]
  dsimp only
  rw [out_C, pay3_eq, pay2_eq]
  funext i
  show Ideal.div ((outsAt0 m c 30 _).2 i + ∑ j, sqVec (F := Ideal) (nblk m c tLast) (lblk m c tLast) j) countE = _
  rw [scratch_eq m c 30 (by omega)]
  have hb : blockSum m c 31 = ∑ j, sqVec (F := Ideal) (nblk m c tLast) (lblk m c tLast) j := by
    rw [blockSum, dif_pos tLast.isLt]
  rw [← hb, chain_succ]

/-- The one write-back, at the last point, writes it: the [1, 1] block at zero offsets is the whole [1, 1] array. -/
theorem flushed_eq (c : Dev nD) (t : Fin cfg0.N) (hf : (cfg0.win 2).flush t = true) :
    (dats m 0 c).flushed 2 t = ((cfg0.win 2).blk t).view.read (Elt Ideal) (result m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, out_last]
  have hz' : (fun a => win0_2.index tLast a * main_v0.ty.shape.size a) = fun _ => 0 := funext fun a => by fin_cases a <;> decide
  exact (Memref.read_access_unit_zero (Elt Ideal) main_v0 hz' (fun a => by rw [congrFun hz' a]; simp) (result m c)).symm

/-- So the output array ends holding the quotient (its one block, written back once, is the whole array). -/
theorem final_o (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The scalar the program returns: the host's reshape of the [1, 1] output array. -/
abbrev answer (c : Dev nD) : Buf (Elt Ideal) ((c : Thread nD τ).loc main_v1) :=
  fun _ => Ideal.div (zeroE + ∑ k ∈ Finset.range 32, blockSum m c k) countE

/-- After the region the host reshapes the output array into the scalar result: the same one number. -/
theorem tail_eq (c : Dev nD) :
    Pipeline.afterTail₀ cfgs (dats m) 0 (V0 m) [hostOps1] c main_v1 = answer m c := by
  unfold Pipeline.afterTail₀
  show StableHlo.after hostOps1 _ (Proc.devRef .tc main_v1) = _
  after_results
  funext i
  have e := (Pipeline.withArrays_arr spec0 launch0.win.arr_inj c (V0 m c) (fun w => (dats m 0 c).arrAt w cfg0.N) 2).trans
    (final_o m c)
  show shapeCast S_ (Pipeline.withArrays (cfgs 0).spec c (V0 m c) (fun w => (dats m 0 c).arrAt w (cfgs 0).N)
    (Proc.devRef .tc main_v0)) shapeCasts_S1x1_S_ i = _
  rw [show Pipeline.withArrays (cfgs 0).spec c (V0 m c) (fun w => (dats m 0 c).arrAt w (cfgs 0).N)
    (Proc.devRef .tc main_v0) = result m c from e]
  rfl

/-! ## The blocks are rows of the argument arrays -/

/-- Block `t` of either input starts at row block `t`, column block 0. -/
theorem idx_facts : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

theorem lt32 (t : Fin cfg0.N) : t.val < 32 := lt_of_lt_of_eq t.isLt (show cfg0.N = 32 from N_0)

/-- Entry `j` of the norms' block at point `t` is the norms' entry at row `j₀ + 128·t`, column `j₁`. -/
theorem nblk_apply (c : Dev nD) (t : Fin cfg0.N) (j : S128x8192.Idx) :
    nblk m c t j = m ((c : Thread nD τ).loc main_arg0) (rowAt t.val (lt32 t) j) := by
  have hi := idx_facts t
  show iblk m c 0 t j = _
  unfold iblk
  rw [View.read_apply]
  show m (c.tc.loc main_arg0) _ = m (c.tc.loc main_arg0) _
  refine congrArg _ ?_
  funext a
  apply Fin.ext
  match a with
  | ⟨0, _⟩ => show win0_0.index t 0 * 128 + 1 * (j 0).val = (j 0).val + 128 * t.val; rw [hi.1]; omega
  | ⟨1, _⟩ => show win0_0.index t 1 * 8192 + 1 * (j 1).val = (j 1).val; rw [hi.2.1]; omega

/-- The same for the labels. -/
theorem lblk_apply (c : Dev nD) (t : Fin cfg0.N) (j : S128x8192.Idx) :
    lblk m c t j = m ((c : Thread nD τ).loc main_arg1) (rowAt t.val (lt32 t) j) := by
  have hi := idx_facts t
  show iblk m c 1 t j = _
  unfold iblk
  rw [View.read_apply]
  show m (c.tc.loc main_arg1) _ = m (c.tc.loc main_arg1) _
  refine congrArg _ ?_
  funext a
  apply Fin.ext
  match a with
  | ⟨0, _⟩ => show win0_1.index t 0 * 128 + 1 * (j 0).val = (j 0).val + 128 * t.val; rw [hi.2.2.1]; omega
  | ⟨1, _⟩ => show win0_1.index t 1 * 8192 + 1 * (j 1).val = (j 1).val; rw [hi.2.2.2]; omega

/-- The whole arrays of norms and labels, at their literal shape. -/
abbrev normsArr (c : Dev nD) : FVec Ideal S4096x8192 .f32 := m ((c : Thread nD τ).loc main_arg0)
abbrev labelsArr (c : Dev nD) : IVec S4096x8192 32 := m ((c : Thread nD τ).loc main_arg1)

/-- Block `k`'s sum is the sum of the array's contributions over the rows of that block. -/
theorem blockSum_eq (c : Dev nD) (k : ℕ) (hk : k < 32) :
    blockSum m c k = ∑ j : SBlk.Idx, sqVec (F := Ideal) (normsArr m c) (labelsArr m c) (rowAt k hk j) := by
  have hN : cfg0.N = 32 := N_0
  rw [blockSum, dif_pos (show k < cfg0.N by omega)]
  refine Finset.sum_congr rfl fun j _ => ?_
  rw [sqVec_apply, sqVec_apply, nblk_apply, lblk_apply]

/-- So the 32 block sums add up to the sum of every contribution of the whole arrays. -/
theorem total_eq (c : Dev nD) :
    ∑ k ∈ Finset.range 32, blockSum m c k = ∑ I, sqVec (F := Ideal) (normsArr m c) (labelsArr m c) I := by
  rw [sum_blocks, Finset.sum_range]
  exact Finset.sum_congr rfl fun t _ => blockSum_eq m c t.val t.isLt

/-- The kernel's scalar result as a function of the argument arrays. -/
theorem answer_eq (c : Dev nD) :
    answer m c = fun _ => Ideal.div (zeroE + ∑ I, sqVec (F := Ideal) (normsArr m c) (labelsArr m c) I) countE := by
  funext i
  show Ideal.div (zeroE + ∑ k ∈ Finset.range 32, blockSum m c k) countE = _
  rw [total_eq]

/-! ## The run -/

/-- Every weakly fair execution of the idealized kernel terminates with the scalar result at the mean of the
    contributions and both argument arrays unchanged. -/
theorem run : θ_run defs (onTc (τ := τ) (main (F := Ideal))) ⟨m, fun _ => 0, ρ⟩ fun r => ∀ c : Dev nD,
      r.2.mem ((c : Thread nD τ).loc main_v1) = answer m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Run

end Cert.KernelIdeal.Acc

end
-- ==== Proof.RefMean.lean ====
/-
  What the idealized reference computes, read at the extended reals: the host's sum over both axes of the array of
  contributions `(s·x − s·l)²`, started from zero, divided by the element count 2²⁵.
-/
import proofs.«146696_j29695403885106_1_alg».proof.Proof.Gen.ReferenceIdeal.Run
import proofs.«146696_j29695403885106_1_alg».proof.Proof.LossSpec
import Idealize.ShloMosaic.PureOps.Ideal.Laws
import Idealize.ShloMosaic.Lib.ValueIdx

noncomputable section

open scoped BigOperators
open Idealize.ShloMosaic Idealize.ShloMosaic.TcCoe Idealize.SL.Sem Idealize.ShloMosaic.ValueIdx

namespace Cert.ReferenceIdeal.Mean

open Cert.ReferenceIdeal Cert.ReferenceIdeal.Gen Cert.LossSpec

section
variable {F : FTy → Type} [FloatOps F]

/-- The array the reference sums, as the reference spells it: broadcasts of rank-0 constants, and a format change
    that changes nothing. -/
abbrev refVec (X : FVec F S4096x8192 .f32) (L : IVec S4096x8192 32) : FVec F S4096x8192 .f32 :=
    mulf
      (subf
        (mulf (id (select (cmpi .eq L (broadcastInDim S4096x8192 ![] bcast_S_S4096x8192 (constantI S_ 32 1#32)))
          (broadcastInDim S4096x8192 ![] bcast_S_S4096x8192 (constant S_ .f32 0x40A00000#32))
          (select (cmpi .eq L (broadcastInDim S4096x8192 ![] bcast_S_S4096x8192 (constantI S_ 32 2#32)))
            (broadcastInDim S4096x8192 ![] bcast_S_S4096x8192 (constant S_ .f32 0x40400000#32))
            (broadcastInDim S4096x8192 ![] bcast_S_S4096x8192 (constant S_ .f32 0x3F800000#32))))) X)
        (mulf (id (select (cmpi .eq L (broadcastInDim S4096x8192 ![] bcast_S_S4096x8192 (constantI S_ 32 1#32)))
          (broadcastInDim S4096x8192 ![] bcast_S_S4096x8192 (constant S_ .f32 0x40A00000#32))
          (select (cmpi .eq L (broadcastInDim S4096x8192 ![] bcast_S_S4096x8192 (constantI S_ 32 2#32)))
            (broadcastInDim S4096x8192 ![] bcast_S_S4096x8192 (constant S_ .f32 0x40400000#32))
            (broadcastInDim S4096x8192 ![] bcast_S_S4096x8192 (constant S_ .f32 0x3F800000#32))))) (sitofp .f32 L)))
      (subf
        (mulf (id (select (cmpi .eq L (broadcastInDim S4096x8192 ![] bcast_S_S4096x8192 (constantI S_ 32 1#32)))
          (broadcastInDim S4096x8192 ![] bcast_S_S4096x8192 (constant S_ .f32 0x40A00000#32))
          (select (cmpi .eq L (broadcastInDim S4096x8192 ![] bcast_S_S4096x8192 (constantI S_ 32 2#32)))
            (broadcastInDim S4096x8192 ![] bcast_S_S4096x8192 (constant S_ .f32 0x40400000#32))
            (broadcastInDim S4096x8192 ![] bcast_S_S4096x8192 (constant S_ .f32 0x3F800000#32))))) X)
        (mulf (id (select (cmpi .eq L (broadcastInDim S4096x8192 ![] bcast_S_S4096x8192 (constantI S_ 32 1#32)))
          (broadcastInDim S4096x8192 ![] bcast_S_S4096x8192 (constant S_ .f32 0x40A00000#32))
          (select (cmpi .eq L (broadcastInDim S4096x8192 ![] bcast_S_S4096x8192 (constantI S_ 32 2#32)))
            (broadcastInDim S4096x8192 ![] bcast_S_S4096x8192 (constant S_ .f32 0x40400000#32))
            (broadcastInDim S4096x8192 ![] bcast_S_S4096x8192 (constant S_ .f32 0x3F800000#32))))) (sitofp .f32 L)))

/-- It is the array of contributions. -/
theorem ref_sq (X : FVec F S4096x8192 .f32) (L : IVec S4096x8192 32) : refVec X L = sqVec X L := by
  unfold refVec
  simp only [bcastI_const, bcastF_const, id_eq]
  rfl

end

/-- The host's sum of an array over both axes from zero, then its quotient by the element count, over the extended
    reals: zero plus the sum of every entry, divided. -/
theorem mean_eq (v : FVec Ideal S4096x8192 .f32) :
    Host.divf (Host.reduceAdd v (constant S_ .f32 0x00000000#32) reducesTo_S4096x8192_S_d0_1 h_S_) (constant S_ .f32 0x4C000000#32)
      = fun _ => Ideal.div (Ideal.ofBits .f32 0x00000000#32 + ∑ I, v I) (Ideal.ofBits .f32 0x4C000000#32) := by
  funext i
  show Ideal.div (Ideal.hostReduceAdd reducesTo_S4096x8192_S_d0_1 v (Ideal.ofBits .f32 0x00000000#32) i) _ = _
  rw [Ideal.hostReduceAdd_total reducesTo_S4096x8192_S_d0_1 (fun b => b.elim0)]
  rfl

/-- The reference's result as a function of the argument arrays: zero plus the sum of every contribution, divided by
    the element count. -/
theorem ref_result (X : FVec Ideal S4096x8192 .f32) (L : IVec S4096x8192 32) :
    Host.divf (Host.reduceAdd (refVec X L) (constant S_ .f32 0x00000000#32) reducesTo_S4096x8192_S_d0_1 h_S_) (constant S_ .f32 0x4C000000#32)
      = fun _ => Ideal.div (Ideal.ofBits .f32 0x00000000#32 + ∑ I, sqVec (F := Ideal) X L I) (Ideal.ofBits .f32 0x4C000000#32) := by
  rw [ref_sq]
  exact mean_eq _

end Cert.ReferenceIdeal.Mean

end
-- ==== Proof.lean ====
/-
  The mean of label-scaled squared differences, computed two ways.

  Both programs take norms `x` (floats) and labels `l` (integers) of shape [4096, 8192] and return the mean over all
  2²⁵ entries of `(s·x − s·l)²`, where `s` is 5 for label 1, 3 for label 2 and 1 otherwise. The reference sums the whole
  array at once and divides; the kernel walks 32 blocks of 128 rows, adds each block's sum to a running sum kept in a
  one-element scratch, and divides at the last block. Over the extended reals every operation is exact, the divisor is
  the same float word on both sides, and the two sums differ only in how the same terms are grouped: a sum over all rows
  is the sum over the 32 blocks of each block's sum, and a running sum started at zero ends at zero plus the sum of what
  was added. No law that fails at an infinity is used, so the finiteness of the inputs is never opened.

  The three frame claims come from the programs' runs; the idealization rewrote nothing, so its claim is trivial.
-/
import proofs.«146696_j29695403885106_1_alg».proof.Defs
import proofs.«146696_j29695403885106_1_alg».proof.Proof.Gen.Kernel
import proofs.«146696_j29695403885106_1_alg».proof.Proof.Gen.Kernel.Skeleton
import proofs.«146696_j29695403885106_1_alg».proof.Proof.Gen.Kernel.Launch
import proofs.«146696_j29695403885106_1_alg».proof.Proof.Gen.Kernel.Points
import proofs.«146696_j29695403885106_1_alg».proof.Proof.Gen.Kernel.Frame
import proofs.«146696_j29695403885106_1_alg».proof.Proof.Gen.KernelIdeal
import proofs.«146696_j29695403885106_1_alg».proof.Proof.Gen.KernelIdeal.Skeleton
import proofs.«146696_j29695403885106_1_alg».proof.Proof.Gen.KernelIdeal.Launch
import proofs.«146696_j29695403885106_1_alg».proof.Proof.Gen.KernelIdeal.Points
import proofs.«146696_j29695403885106_1_alg».proof.Proof.Gen.KernelIdeal.Frame
import proofs.«146696_j29695403885106_1_alg».proof.Proof.Gen.ReferenceIdeal
import proofs.«146696_j29695403885106_1_alg».proof.Proof.Gen.ReferenceIdeal.Run
import proofs.«146696_j29695403885106_1_alg».proof.Proof.Gen.Pre_finite_inputs
import proofs.«146696_j29695403885106_1_alg».proof.Proof.KernelMean
import proofs.«146696_j29695403885106_1_alg».proof.Proof.RefMean
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel ends at the quotient of zero plus the 32 block sums and the reference at the
    quotient of zero plus the sum over the whole array: the same extended real. -/
theorem algebraic : Cert.algebraic_KernelIdeal_ReferenceIdeal := by
  intro m ρ m' ρ' _ hagree
  refine ⟨fun c => Cert.KernelIdeal.Acc.answer m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Mean.ref_result _ _).trans (Cert.KernelIdeal.Acc.answer_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
